-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x128 : Shape := ⟨2, ![5000, 128]⟩
abbrev S5000x256 : Shape := ⟨2, ![5000, 256]⟩
abbrev S850000x256 : Shape := ⟨2, ![850000, 256]⟩
abbrev S1x256 : Shape := ⟨2, ![1, 256]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 73
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S50000, .f32⟩
  | .hbm, ⟨15, _⟩ => ⟨S_, .i32⟩
  | .hbm, ⟨16, _⟩ => ⟨S850000, .i32⟩
  | .hbm, ⟨17, _⟩ => ⟨S850000, .i1⟩
  | .hbm, ⟨18, _⟩ => ⟨S_, .i32⟩
  | .hbm, ⟨19, _⟩ => ⟨S850000, .i32⟩
  | .hbm, ⟨20, _⟩ => ⟨S850000, .i32⟩
  | .hbm, ⟨21, _⟩ => ⟨S850000, .i32⟩
  | .hbm, ⟨22, _⟩ => ⟨S850000x1, .i32⟩
  | .hbm, ⟨23, _⟩ => ⟨S_, .f32⟩
  | .hbm, ⟨24, _⟩ => ⟨S850000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S50000x256, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x256, .f32⟩
  | .hbm, ⟨63, _⟩ => ⟨S850000x1, .f32⟩
  | .hbm, ⟨64, _⟩ => ⟨S850000x256, .f32⟩
  | .hbm, ⟨65, _⟩ => ⟨S850000x256, .f32⟩
  | .hbm, ⟨66, _⟩ => ⟨S_, .f32⟩
  | .hbm, ⟨67, _⟩ => ⟨S50000x256, .f32⟩
  | .hbm, ⟨68, _⟩ => ⟨S850000x1, .i32⟩
  | .hbm, ⟨69, _⟩ => ⟨S50000x256, .f32⟩
  | .hbm, ⟨70, _⟩ => ⟨S1x256, .f32⟩
  | .hbm, ⟨71, _⟩ => ⟨S1x64, .f32⟩
  | .hbm, ⟨72, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S256x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S64_S1x64 : S64.ShapeCasts S1x64
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x64 : Shape := ⟨2, ![50000, 64]⟩
abbrev S1x64 : Shape := ⟨2, ![1, 64]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S50000, .f32⟩
  | .hbm, ⟨15, _⟩ => ⟨S_, .i32⟩
  | .hbm, ⟨16, _⟩ => ⟨S850000, .i32⟩
  | .hbm, ⟨17, _⟩ => ⟨S850000, .i1⟩
  | .hbm, ⟨18, _⟩ => ⟨S_, .i32⟩
  | .hbm, ⟨19, _⟩ => ⟨S850000, .i32⟩
  | .hbm, ⟨20, _⟩ => ⟨S850000, .i32⟩
  | .hbm, ⟨21, _⟩ => ⟨S850000, .i32⟩
  | .hbm, ⟨22, _⟩ => ⟨S850000x1, .i32⟩
  | .hbm, ⟨23, _⟩ => ⟨S_, .f32⟩
  | .hbm, ⟨24, _⟩ => ⟨S850000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S50000x256, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x256, .f32⟩
  | .hbm, ⟨63, _⟩ => ⟨S850000x1, .f32⟩
  | .hbm, ⟨64, _⟩ => ⟨S850000x256, .f32⟩
  | .hbm, ⟨65, _⟩ => ⟨S850000x256, .f32⟩
  | .hbm, ⟨66, _⟩ => ⟨S_, .f32⟩
  | .hbm, ⟨67, _⟩ => ⟨S50000x256, .f32⟩
  | .hbm, ⟨68, _⟩ => ⟨S850000x1, .i32⟩
  | .hbm, ⟨69, _⟩ => ⟨S50000x256, .f32⟩
  | .hbm, ⟨70, _⟩ => ⟨S1x256, .f32⟩
  | .hbm, ⟨71, _⟩ => ⟨S50000x256, .f32⟩
  | .hbm, ⟨72, _⟩ => ⟨S50000x256, .f32⟩
  | .hbm, ⟨73, _⟩ => ⟨S_, .f32⟩
  | .hbm, ⟨74, _⟩ => ⟨S50000x256, .f32⟩
  | .hbm, ⟨75, _⟩ => ⟨S50000x256, .f32⟩
  | .hbm, ⟨76, _⟩ => ⟨S50000x64, .f32⟩
  | .hbm, ⟨77, _⟩ => ⟨S1x64, .f32⟩
  | .hbm, ⟨78, _⟩ => ⟨S50000x64, .f32⟩
  | .hbm, ⟨79, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.Spec.lean ====
/-
  The two dense layers of the graph convolution, as functions of whole arrays at the ideal values.

  `matProd x w` is the feature transform h = x · W: entry (r, j) is the sum over k of x (r, k) · W (k, j).
  `denseHead a b w2 b2` is the fused head relu (a + b) · W2 + b2 with the two biases laid out as one-row tables:
  entry (r, j) is the sum over k of max (a (r, k) + b (0, k)) 0 · W2 (k, j), plus b2 (0, j).
  Both programs compute these two functions (one block of rows at a time, or all rows at once); everything
  between them — degrees, the symmetric normalisation, the gather of source rows and the scatter-add into
  destination rows — is the same chain of host operations on both sides and is never opened.
-/
import Idealize.ShloMosaic.PureOps.Ideal.Laws
import Idealize.ShloMosaic.Lib.ValueIdx
import Idealize.ShloMosaic.Lib.Pipeline.Value
import proofs.«125237_j51762945852140_1_alg».proof.Proof.LibPlainDot

noncomputable section

namespace Cert.Gcn

open Idealize.ShloMosaic Idealize.ShloMosaic.ValueIdx

/-- The float zero both programs write as the word 0x00000000; it is compared, never evaluated. -/
abbrev fzero : Ideal .f32 := FloatOps.ofBits (F := Ideal) .f32 0x00000000#32

/-- h = x · W over [50000, 128] × [128, 256]. -/
def matProd (x : FVec Ideal ⟨2, ![50000, 128]⟩ .f32) (w : FVec Ideal ⟨2, ![128, 256]⟩ .f32) :
    FVec Ideal ⟨2, ![50000, 256]⟩ .f32 :=
  fun i => ∑ k : Fin 128, x (ix2 (i 0) k) * w (ix2 k (i 1))

/-- relu (a + b) · W2 + b2 over [50000, 256] × [256, 64], the biases as one-row tables. -/
def denseHead (a : FVec Ideal ⟨2, ![50000, 256]⟩ .f32) (b : FVec Ideal ⟨2, ![1, 256]⟩ .f32)
    (w2 : FVec Ideal ⟨2, ![256, 64]⟩ .f32) (b2 : FVec Ideal ⟨2, ![1, 64]⟩ .f32) :
    FVec Ideal ⟨2, ![50000, 64]⟩ .f32 :=
  fun i => (∑ k : Fin 256, max (a (ix2 (i 0) k) + b (ix2 (0 : Fin 1) k)) fzero * w2 (ix2 k (i 1))) + b2 (ix2 (0 : Fin 1) (i 1))

theorem matProd_apply (x : FVec Ideal ⟨2, ![50000, 128]⟩ .f32) (w : FVec Ideal ⟨2, ![128, 256]⟩ .f32)
    (r : Fin 50000) (j : Fin 256) :
    matProd x w (ix2 r j) = ∑ k : Fin 128, x (ix2 r k) * w (ix2 k j) := rfl

theorem denseHead_apply (a : FVec Ideal ⟨2, ![50000, 256]⟩ .f32) (b : FVec Ideal ⟨2, ![1, 256]⟩ .f32)
    (w2 : FVec Ideal ⟨2, ![256, 64]⟩ .f32) (b2 : FVec Ideal ⟨2, ![1, 64]⟩ .f32) (r : Fin 50000) (j : Fin 64) :
    denseHead a b w2 b2 (ix2 r j)
      = (∑ k : Fin 256, max (a (ix2 r k) + b (ix2 (0 : Fin 1) k)) fzero * w2 (ix2 k j)) + b2 (ix2 (0 : Fin 1) j) := rfl

/-- The host's `dot_general` of the plain product's dimension numbers over these extents IS `matProd`. -/
theorem dotGeneral_eq_matProd (d : DotDims ⟨2, ![50000, 128]⟩ ⟨2, ![128, 256]⟩ ⟨2, ![50000, 256]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (x : FVec Ideal ⟨2, ![50000, 128]⟩ .f32) (w : FVec Ideal ⟨2, ![128, 256]⟩ .f32) :
    FloatOps.dotGeneral d prec sched x w = matProd x w := by
  funext i
  obtain ⟨r, j, rfl⟩ : ∃ (r : Fin 50000) (j : Fin 256), i = ix2 r j := ⟨i 0, i 1, eq_ix2 i⟩
  exact (Cert.LibPlainDot.dotGeneral_apply d hlc hrc hln hrn hlb hrb prec sched x w r j).trans (matProd_apply x w r j).symm

end Cert.Gcn

end
-- ==== Proof.Payload.lean ====
/-
  What each kernel body stores, read at an entry, at the ideal values.

  The first body stores its block of x times W: entry (p, j) is the sum over k of xb (p, k) · wb (k, j). The
  narrowing of both operands to bf16 before the product is the identity on extended reals, and the product
  accumulates into zero.
  The second body stores relu (ab + b) · W2 + b2 for its block of rows: entry (p, j) is the sum over k of
  max (ab (p, k) + b (0, k)) 0 · w2 (k, j), plus b2 (0, j). The one-row biases are repeated down the rows
  (a broadcast of a [1, n] table to [5000, n] reads row 0), the same-shape casts change nothing, and again the
  narrowing to bf16 is the identity.
-/
import proofs.«125237_j51762945852140_1_alg».proof.Proof.Gen.KernelIdeal.Skeleton
import proofs.«125237_j51762945852140_1_alg».proof.Proof.Spec
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx Cert.Gcn

/-- The first body's stored block at (p, j): row p of the x-block against column j of W. -/
theorem matmul_block_apply (xb : Vec Ideal S5000x128 .f32) (wb : Vec Ideal S128x256 .f32) (p : Fin 5000) (j : Fin 256) :
    k0_pay1 (F := Ideal) xb wb (ix2 p j) = ∑ k : Fin 128, xb (ix2 p k) * wb (ix2 k j) := by
  unfold k0_pay1
  exact Cert.LibPlainDot.matmul_zero_apply dot_S5000x128_S128x256_S5000x256_1_0_0_1_n_n rfl rfl rfl rfl rfl rfl none
    (truncf .bf16 xb bitsLt_bf16_f32) (truncf .bf16 wb bitsLt_bf16_f32) p j

/-- A one-row table repeated down 5000 rows reads its row 0. -/
theorem row_bcast_apply {n : Nat} (hn : n ≠ 1) (v : (⟨2, ![1, n]⟩ : Shape).Idx → EReal)
    (h : (⟨2, ![1, n]⟩ : Shape).Broadcasts ⟨2, ![5000, n]⟩) (p : Fin 5000) (k : Fin n) :
    broadcastTo ⟨2, ![5000, n]⟩ v h (ix2 p k) = v (ix2 (0 : Fin 1) k) := by
  refine broadcastTo_apply v h (ix2 p k) (ix2 (0 : Fin 1) k) fun a => ?_
  match a with
  | ⟨0, _⟩ => show (0 : Nat) = if (1 : Nat) = 1 then 0 else _; rw [if_pos rfl]
  | ⟨1, _⟩ => show k.val = if n = 1 then 0 else k.val; rw [if_neg hn]

/-- The second body's stored block at (p, j). -/
theorem head_block_apply (ab : Vec Ideal S5000x256 .f32) (bb : Vec Ideal S1x256 .f32) (wb : Vec Ideal S256x64 .f32)
    (b2b : Vec Ideal S1x64 .f32) (p : Fin 5000) (j : Fin 64) :
    k1_pay1 (F := Ideal) ab bb wb b2b (ix2 p j)
      = (∑ k : Fin 256, max (ab (ix2 p k) + bb (ix2 (0 : Fin 1) k)) fzero * wb (ix2 k j)) + b2b (ix2 (0 : Fin 1) j) := by
  unfold k1_pay1
  rw [addf_apply]
  refine congrArg₂ (· + ·) ?_ ?_
  · refine (Cert.LibPlainDot.matmul_zero_apply dot_S5000x256_S256x64_S5000x64_1_0_0_1_n_n rfl rfl rfl rfl rfl rfl none _ _ p j).trans ?_
    refine Finset.sum_congr rfl fun k _ => ?_
    refine congrArg₂ (· * ·) ?_ rfl
    show max (shapeCast S5000x256 ab shapeCasts_S5000x256_S5000x256 (ix2 p k)
        + broadcastTo S5000x256 (shapeCast S1x256 bb shapeCasts_S1x256_S1x256) broadcasts_S1x256_S5000x256 (ix2 p k)) fzero = _
    rw [shapeCast_self, shapeCast_self, row_bcast_apply (by decide)]
  · show broadcastTo S5000x64 (shapeCast S1x64 b2b shapeCasts_S1x64_S1x64) broadcasts_S1x64_S5000x64 (ix2 p j) = _
    rw [shapeCast_self, row_bcast_apply (by decide)]

end Cert.KernelIdeal.Payload

end
-- ==== Proof.Region0Value.lean ====
/-
  The first region's result array, at the ideal values: after its ten grid points the array the matmul kernel
  writes holds h = x · W, whatever the buffers held when the region was entered.

  Grid point t fetches rows 5000 t … 5000 t + 4999 of x and all of W, and writes back rows
  5000 t … 5000 t + 4999 of the result; entry (p, j) of that block is the sum over k of x (5000 t + p, k) · W (k, j),
  which is entry (5000 t + p, j) of x · W. Row r of the result lies in the block of point r / 5000, so the ten
  blocks cover the array.
-/
import proofs.«125237_j51762945852140_1_alg».proof.Proof.Gen.KernelIdeal.Frame
import proofs.«125237_j51762945852140_1_alg».proof.Proof.Payload
import Idealize.ShloMosaic.Lib.Pipeline.Value

set_option maxRecDepth 16384

noncomputable section

namespace Cert.KernelIdeal.Region0

open Cert.KernelIdeal Cert.KernelIdeal.Gen Cert.KernelIdeal.Payload Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: point t takes row block t of x and of the result, and the one block of W. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The x-block of point t is rows 5000 t … of x as the region finds it. -/
theorem xblock_apply (c : Dev nD) (t : Fin cfg0.N) (p : Fin 5000) (k : Fin 128) (r : Fin 50000)
    (hr : r.val = t.val * 5000 + p.val) :
    (iblk0 V c 0 t : Vec Ideal S5000x128 .f32) (ix2 p k) = (V c main_arg0 : FVec Ideal S50000x128 .f32) (ix2 r k) := by
  obtain ⟨e0, e1, -⟩ := idx_facts t
  unfold iblk0
  rw [View.read_apply]
  show (V c main_arg0 : FVec Ideal S50000x128 .f32) _ = _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The W-block of every point is W as the region finds it. -/
theorem wblock_apply (c : Dev nD) (t : Fin cfg0.N) (k : Fin 128) (j : Fin 256) :
    (iblk0 V c 1 t : Vec Ideal S128x256 .f32) (ix2 k j) = (V c main_arg2 : FVec Ideal S128x256 .f32) (ix2 k j) := by
  obtain ⟨-, -, e2, e3, -⟩ := idx_facts t
  unfold iblk0
  rw [View.read_apply]
  show (V c main_arg2 : FVec Ideal S128x256 .f32) _ = _
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 256 + 1 * j.val = j.val; rw [e3]; omega

/-- One stored block against the whole product, over plain vectors: if the x-block is rows 5000 t … of x and the
    W-block is W, the stored entry (p, j) is entry (5000 t + p, j) of x · W. -/
theorem block_entry (x : FVec Ideal S50000x128 .f32) (w : FVec Ideal S128x256 .f32)
    (xb : Vec Ideal S5000x128 .f32) (wb : Vec Ideal S128x256 .f32) (p : Fin 5000) (j : Fin 256) (r : Fin 50000)
    (hx : ∀ k : Fin 128, xb (ix2 p k) = x (ix2 r k)) (hw : ∀ k : Fin 128, wb (ix2 k j) = w (ix2 k j)) :
    k0_pay1 (F := Ideal) xb wb (ix2 p j) = matProd x w (ix2 r j) := by
  rw [matmul_block_apply, matProd_apply]
  exact Finset.sum_congr rfl fun k _ => by rw [hx k, hw k]

/-- What point t writes back is block t of x · W. -/
theorem flushed_eq (c : Dev nD) (t : Fin cfg0.N) :
    (dat0 V c).flushed 2 t
      = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x256) hz]
  obtain ⟨-, -, -, -, e4, e5⟩ := idx_facts t
  have ht : t.val < 10 := lt_of_lt_of_eq t.isLt N_0
  funext y
  obtain ⟨p, j, rfl⟩ : ∃ (p : Fin 5000) (j : Fin 256), y = ix2 p j := ⟨y 0, y 1, eq_ix2 y⟩
  rw [View.read_apply]
  have hr : t.val * 5000 + p.val < 50000 := by have := p.isLt; omega
  have hemb : ((cfg0.win 2).blk t).view.emb (ix2 p j) = (ix2 (⟨t.val * 5000 + p.val, hr⟩ : Fin 50000) j : S50000x256.Idx) := by
    funext a; apply Fin.ext
    match a with
    | ⟨0, _⟩ => show win0_2.index t (0 : Fin 2) * 5000 + 1 * p.val = t.val * 5000 + p.val; rw [e4]; omega
    | ⟨1, _⟩ => show win0_2.index t (1 : Fin 2) * 256 + 1 * j.val = j.val; rw [e5]; omega
  rw [hemb]
  exact block_entry (V c main_arg0) (V c main_arg2) (iblk0 V c 0 t) (iblk0 V c 1 t) p j ⟨t.val * 5000 + p.val, hr⟩
    (fun k => xblock_apply V c t p k ⟨t.val * 5000 + p.val, hr⟩ rfl) (fun k => wblock_apply V c t k j)

/-- An index of the result array is in point t's block iff each coordinate is in the block's range on its axis. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v35).slice (win0_2.rect t)).set ↔ _
  rw [View.set_slice_whole, Rect.mem_set_unit]
  exact Iff.rfl

/-- Row r lies in the block of point r / 5000. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  have hq : (i 0).val / 5000 < cfg0.N := by rw [hN]; omega
  obtain ⟨-, -, -, -, e4, e5⟩ := idx_facts ⟨(i 0).val / 5000, hq⟩
  refine ⟨⟨(i 0).val / 5000, hq⟩, flush0_2 _, ?_⟩
  rw [mem_blk]
  intro a
  match a with
  | ⟨0, _⟩ =>
    show win0_2.index ⟨(i 0).val / 5000, hq⟩ (0 : Fin 2) * 5000 ≤ (i 0).val ∧ (i 0).val < win0_2.index ⟨(i 0).val / 5000, hq⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hq⟩ (1 : Fin 2) * 256 ≤ (i 1).val ∧ (i 1).val < win0_2.index ⟨(i 0).val / 5000, hq⟩ (1 : Fin 2) * 256 + 256
    rw [e5]; omega

/-- The result array after the region: x · W of the arrays the region found. -/
theorem arr_eq (c : Dev nD) :
    (dat0 V c).arrAt 2 cfg0.N = matProd (V c main_arg0) (V c main_arg2) :=
  (dat0 V c).arrAt_eq_of_cover 2 (matProd (V c main_arg0) (V c main_arg2)) (fun t _ => flushed_eq V c t) cover

end Cert.KernelIdeal.Region0

end
-- ==== Proof.Region1Value.lean ====
/-
  The second region's result array, at the ideal values: after its ten grid points the array the fused kernel
  writes holds relu (a + b) · W2 + b2 of the arrays the region found — a the aggregated features, b and b2 the biases
  as one-row tables.

  Grid point t fetches rows 5000 t … 5000 t + 4999 of a and all of b, W2 and b2, and writes back rows
  5000 t … 5000 t + 4999 of the result; entry (p, j) of that block is the sum over k of
  max (a (5000 t + p, k) + b (0, k)) 0 · W2 (k, j), plus b2 (0, j): entry (5000 t + p, j) of the whole-array function.
  Row r of the result lies in the block of point r / 5000, so the ten blocks cover the array.
-/
import proofs.«125237_j51762945852140_1_alg».proof.Proof.Gen.KernelIdeal.Frame
import proofs.«125237_j51762945852140_1_alg».proof.Proof.Payload
import Idealize.ShloMosaic.Lib.Pipeline.Value

set_option maxRecDepth 16384

noncomputable section

namespace Cert.KernelIdeal.Region1

open Cert.KernelIdeal Cert.KernelIdeal.Gen Cert.KernelIdeal.Payload Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: point t takes row block t of a and of the result, and the one block of each of
    b, W2 and b2. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The a-block of point t is rows 5000 t … of a as the region finds it. -/
theorem ablock_apply (c : Dev nD) (t : Fin cfg1.N) (p : Fin 5000) (k : Fin 256) (r : Fin 50000)
    (hr : r.val = t.val * 5000 + p.val) :
    (iblk1 V c 0 t : Vec Ideal S5000x256 .f32) (ix2 p k) = (V c main_v48 : FVec Ideal S50000x256 .f32) (ix2 r k) := by
  obtain ⟨e0, e1, -⟩ := idx_facts t
  unfold iblk1
  rw [View.read_apply]
  show (V c main_v48 : FVec Ideal S50000x256 .f32) _ = _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 256 + 1 * k.val = k.val; rw [e1]; omega

/-- The b-block of every point is the one-row table b as the region finds it. -/
theorem bblock_apply (c : Dev nD) (t : Fin cfg1.N) (k : Fin 256) :
    (iblk1 V c 1 t : Vec Ideal S1x256 .f32) (ix2 (0 : Fin 1) k) = (V c main_v49 : FVec Ideal S1x256 .f32) (ix2 (0 : Fin 1) k) := by
  obtain ⟨-, -, e2, e3, -⟩ := idx_facts t
  unfold iblk1
  rw [View.read_apply]
  show (V c main_v49 : FVec Ideal S1x256 .f32) _ = _
  refine congrArg _ (funext fun a => Fin.ext ?_)
  match a with
  | ⟨0, _⟩ => show win1_1.index t (0 : Fin 2) * 1 + 1 * 0 = 0; rw [e2]
  | ⟨1, _⟩ => show win1_1.index t (1 : Fin 2) * 256 + 1 * k.val = k.val; rw [e3]; omega

/-- The W2-block of every point is W2 as the region finds it. -/
theorem wblock_apply (c : Dev nD) (t : Fin cfg1.N) (k : Fin 256) (j : Fin 64) :
    (iblk1 V c 2 t : Vec Ideal S256x64 .f32) (ix2 k j) = (V c main_arg4 : FVec Ideal S256x64 .f32) (ix2 k j) := by
  obtain ⟨-, -, -, -, e4, e5, -⟩ := idx_facts t
  unfold iblk1
  rw [View.read_apply]
  show (V c main_arg4 : FVec Ideal S256x64 .f32) _ = _
  refine congrArg _ (funext fun a => Fin.ext ?_)
  match a with
  | ⟨0, _⟩ => show win1_2.index t (0 : Fin 2) * 256 + 1 * k.val = k.val; rw [e4]; omega
  | ⟨1, _⟩ => show win1_2.index t (1 : Fin 2) * 64 + 1 * j.val = j.val; rw [e5]; omega

/-- The b2-block of every point is the one-row table b2 as the region finds it. -/
theorem b2block_apply (c : Dev nD) (t : Fin cfg1.N) (j : Fin 64) :
    (iblk1 V c 3 t : Vec Ideal S1x64 .f32) (ix2 (0 : Fin 1) j) = (V c main_v50 : FVec Ideal S1x64 .f32) (ix2 (0 : Fin 1) j) := by
  obtain ⟨-, -, -, -, -, -, e6, e7, -⟩ := idx_facts t
  unfold iblk1
  rw [View.read_apply]
  show (V c main_v50 : FVec Ideal S1x64 .f32) _ = _
  refine congrArg _ (funext fun a => Fin.ext ?_)
  match a with
  | ⟨0, _⟩ => show win1_3.index t (0 : Fin 2) * 1 + 1 * 0 = 0; rw [e6]
  | ⟨1, _⟩ => show win1_3.index t (1 : Fin 2) * 64 + 1 * j.val = j.val; rw [e7]; omega

/-- One stored block against the whole-array function, over plain vectors: if the a-block is rows 5000 t … of a and
    the other blocks are b, W2 and b2, the stored entry (p, j) is entry (5000 t + p, j) of relu (a + b) · W2 + b2. -/
theorem block_entry (a : FVec Ideal S50000x256 .f32) (b : FVec Ideal S1x256 .f32) (w2 : FVec Ideal S256x64 .f32)
    (b2 : FVec Ideal S1x64 .f32) (ab : Vec Ideal S5000x256 .f32) (bb : Vec Ideal S1x256 .f32) (wb : Vec Ideal S256x64 .f32)
    (b2b : Vec Ideal S1x64 .f32) (p : Fin 5000) (j : Fin 64) (r : Fin 50000)
    (ha : ∀ k : Fin 256, ab (ix2 p k) = a (ix2 r k)) (hb : ∀ k : Fin 256, bb (ix2 (0 : Fin 1) k) = b (ix2 (0 : Fin 1) k))
    (hw : ∀ k : Fin 256, wb (ix2 k j) = w2 (ix2 k j)) (hb2 : b2b (ix2 (0 : Fin 1) j) = b2 (ix2 (0 : Fin 1) j)) :
    k1_pay1 (F := Ideal) ab bb wb b2b (ix2 p j) = denseHead a b w2 b2 (ix2 r j) := by
  rw [head_block_apply, denseHead_apply, hb2]
  exact congrArg (· + b2 (ix2 (0 : Fin 1) j)) (Finset.sum_congr rfl fun k _ => by rw [ha k, hb k, hw k])

/-- What point t writes back is block t of relu (a + b) · W2 + b2. -/
theorem flushed_eq (c : Dev nD) (t : Fin cfg1.N) :
    (dat1 V c).flushed 4 t
      = ((cfg1.win 4).blk t).view.read (Elt Ideal) (denseHead (V c main_v48) (V c main_v49) (V c main_arg4) (V c main_v50)) := by
  show (cfg1.win 4).cut (grid1.coords t) ((dat1 V c).after 4 t) = _
  rw [after1_4]
  unfold out1_4
  rw [View.canon_unit_zero hz]
  simp only [View.ld_unit_zero (S := S5000x256) hz, View.ld_unit_zero (S := S1x256) hz, View.ld_unit_zero (S := S256x64) hz,
    View.ld_unit_zero (S := S1x64) hz]
  obtain ⟨-, -, -, -, -, -, -, -, e8, e9⟩ := idx_facts t
  have ht : t.val < 10 := lt_of_lt_of_eq t.isLt N_1
  funext y
  obtain ⟨p, j, rfl⟩ : ∃ (p : Fin 5000) (j : Fin 64), y = ix2 p j := ⟨y 0, y 1, eq_ix2 y⟩
  rw [View.read_apply]
  have hr : t.val * 5000 + p.val < 50000 := by have := p.isLt; omega
  have hemb : ((cfg1.win 4).blk t).view.emb (ix2 p j) = (ix2 (⟨t.val * 5000 + p.val, hr⟩ : Fin 50000) j : S50000x64.Idx) := by
    funext a; apply Fin.ext
    match a with
    | ⟨0, _⟩ => show win1_4.index t (0 : Fin 2) * 5000 + 1 * p.val = t.val * 5000 + p.val; rw [e8]; omega
    | ⟨1, _⟩ => show win1_4.index t (1 : Fin 2) * 64 + 1 * j.val = j.val; rw [e9]; omega
  rw [hemb]
  exact block_entry (V c main_v48) (V c main_v49) (V c main_arg4) (V c main_v50)
    (iblk1 V c 0 t) (iblk1 V c 1 t) (iblk1 V c 2 t) (iblk1 V c 3 t) p j ⟨t.val * 5000 + p.val, hr⟩
    (fun k => ablock_apply V c t p k ⟨t.val * 5000 + p.val, hr⟩ rfl) (fun k => bblock_apply V c t k)
    (fun k => wblock_apply V c t k j) (b2block_apply V c t j)

/-- An index of the result array is in point t's block iff each coordinate is in the block's range on its axis. -/
theorem mem_blk (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v51).slice (win1_4.rect t)).set ↔ _
  rw [View.set_slice_whole, Rect.mem_set_unit]
  exact Iff.rfl

/-- Row r lies in the block of point r / 5000. -/
theorem cover (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 10 := N_1
  have hq : (i 0).val / 5000 < cfg1.N := by rw [hN]; omega
  obtain ⟨-, -, -, -, -, -, -, -, e8, e9⟩ := idx_facts ⟨(i 0).val / 5000, hq⟩
  refine ⟨⟨(i 0).val / 5000, hq⟩, flush1_4 _, ?_⟩
  rw [mem_blk]
  intro a
  match a with
  | ⟨0, _⟩ =>
    show win1_4.index ⟨(i 0).val / 5000, hq⟩ (0 : Fin 2) * 5000 ≤ (i 0).val ∧ (i 0).val < win1_4.index ⟨(i 0).val / 5000, hq⟩ (0 : Fin 2) * 5000 + 5000
    rw [e8]; show (i 0).val / 5000 * 5000 ≤ (i 0).val ∧ (i 0).val < (i 0).val / 5000 * 5000 + 5000; omega
  | ⟨1, _⟩ =>
    show win1_4.index ⟨(i 0).val / 5000, hq⟩ (1 : Fin 2) * 64 ≤ (i 1).val ∧ (i 1).val < win1_4.index ⟨(i 0).val / 5000, hq⟩ (1 : Fin 2) * 64 + 64
    rw [e9]; omega

/-- The result array after the region: relu (a + b) · W2 + b2 of the arrays the region found. -/
theorem arr_eq (c : Dev nD) :
    (dat1 V c).arrAt 4 cfg1.N = denseHead (V c main_v48) (V c main_v49) (V c main_arg4) (V c main_v50) :=
  (dat1 V c).arrAt_eq_of_cover 4 (denseHead (V c main_v48) (V c main_v49) (V c main_arg4) (V c main_v50))
    (fun t _ => flushed_eq V c t) cover

end Cert.KernelIdeal.Region1

end
-- ==== Proof.ReferenceValue.lean ====
/-
  The reference's result as the two dense layers around the shared aggregation.

  Everything the reference does between h = x · W and the fused head — the scatter-add into destination rows of the
  gathered source rows of h, each weighted by the edge's norm — reads h only through one gather, so it is ONE function
  `aggregate h e` of h and the edge array (never opened). The reference's result is then
  `denseHead (aggregate (matProd x W) e) b' W2 b2'`: its `dot_general`s are the sums over k, its two-step broadcasts of
  the biases read entry (0, k) of the one-row tables b' and b2', its `relu` is the maximum with the zero word.
-/
import proofs.«125237_j51762945852140_1_alg».proof.Proof.ReferenceRead
import proofs.«125237_j51762945852140_1_alg».proof.Proof.Spec

noncomputable section

namespace Cert.ReferenceIdeal.RefValue

open Cert.ReferenceIdeal Cert.ReferenceIdeal.Gen Cert.ReferenceIdeal.ReadP Cert.Gcn
open Idealize.ShloMosaic Idealize.ShloMosaic.TcCoe Idealize.ShloMosaic.ValueIdx

section Generic

variable {F : FTy → Type} [FloatOps F]

/-- The aggregation as a function of the transformed features h and the edge array: gather the source rows of h,
    weight each by its edge's norm, scatter-add into the destination rows of a zero array. -/
def aggregate (h : (⟨S50000x256, .f32⟩ : BufTy).Contents (Elt F)) (e : (⟨S2x800000, .i32⟩ : BufTy).Contents (Elt F)) :
    (⟨S50000x256, .f32⟩ : BufTy).Contents (Elt F) :=
  Host.scatterAdd scatter_S50000x256_S850000x1_S850000x256_1_0_0_1 (val_main_v46 (F := F)) (val_main_v47 (F := F) e)
    (mulf (Host.gather gather_S50000x256_S850000x1_S850000x256_1_0_n_n_0_1_1256 h (val_main_v41 (F := F) e)) (val_main_v44 (F := F) e))

/-- The reference's aggregated features are `aggregate` of its `dot_general`. -/
theorem val_main_v48_eq (x0 : (⟨S50000x128, .f32⟩ : BufTy).Contents (Elt F)) (x1 : (⟨S2x800000, .i32⟩ : BufTy).Contents (Elt F))
    (x2 : (⟨S128x256, .f32⟩ : BufTy).Contents (Elt F)) :
    val_main_v48 (F := F) x0 x1 x2 = aggregate (val_main_v35 (F := F) x0 x2) x1 := rfl

end Generic

/-- The reference's first `dot_general` is x · W. -/
theorem val_main_v35_eq (x0 : (⟨S50000x128, .f32⟩ : BufTy).Contents (Elt Ideal)) (x2 : (⟨S128x256, .f32⟩ : BufTy).Contents (Elt Ideal)) :
    val_main_v35 (F := Ideal) x0 x2 = matProd x0 x2 := by
  unfold val_main_v35
  simp only [Host.dotGeneral]
  exact dotGeneral_eq_matProd _ rfl rfl rfl rfl rfl rfl _ _ x0 x2

theorem lidx53 (r : Fin 50000) (j : Fin 64) (k : Fin 256) : lidx_main_v53 (ix2 r j) k = ix2 r k :=
  funext fun a => Fin.ext (by match a with | ⟨0, _⟩ => rfl | ⟨1, _⟩ => rfl)
theorem ridx53 (r : Fin 50000) (j : Fin 64) (k : Fin 256) : ridx_main_v53 (ix2 r j) k = ix2 k j :=
  funext fun a => Fin.ext (by match a with | ⟨0, _⟩ => rfl | ⟨1, _⟩ => rfl)
theorem idx50 (r : Fin 50000) (k : Fin 256) : idx_main_v50 (ix2 r k) = ix2 (0 : Fin 1) k :=
  funext fun a => Fin.ext (by match a with | ⟨0, _⟩ => rfl | ⟨1, _⟩ => rfl)
theorem idx55 (r : Fin 50000) (j : Fin 64) : idx_main_v55 (ix2 r j) = ix2 (0 : Fin 1) j :=
  funext fun a => Fin.ext (by match a with | ⟨0, _⟩ => rfl | ⟨1, _⟩ => rfl)

/-- The reference's result is the dense head of the aggregate of x · W, the biases as its one-row tables. -/
theorem result_eq (x0 : (⟨S50000x128, .f32⟩ : BufTy).Contents (Elt Ideal)) (x1 : (⟨S2x800000, .i32⟩ : BufTy).Contents (Elt Ideal))
    (x2 : (⟨S128x256, .f32⟩ : BufTy).Contents (Elt Ideal)) (x3 : (⟨S256, .f32⟩ : BufTy).Contents (Elt Ideal))
    (x4 : (⟨S256x64, .f32⟩ : BufTy).Contents (Elt Ideal)) (x5 : (⟨S64, .f32⟩ : BufTy).Contents (Elt Ideal)) :
    val_main_v56 (F := Ideal) x0 x1 x2 x3 x4 x5
      = denseHead (aggregate (matProd x0 x2) x1) (val_main_v49 (F := Ideal) x3) x4 (val_main_v54 (F := Ideal) x5) := by
  funext i
  obtain ⟨r, j, rfl⟩ : ∃ (r : Fin 50000) (j : Fin 64), i = ix2 r j := ⟨i 0, i 1, eq_ix2 i⟩
  rw [denseHead_apply, val_main_v56_apply, val_main_v53_apply, val_main_v55_apply, idx55]
  refine congrArg (· + val_main_v54 (F := Ideal) x5 (ix2 (0 : Fin 1) j)) (Finset.sum_congr rfl fun k _ => ?_)
  rw [lidx53, ridx53, val_main_v52_apply, val_main_v51_apply, val_main_v50_apply, idx50, val_main_call1_v0_apply,
    val_main_call1_cst_apply, val_main_v48_eq, val_main_v35_eq]
  rfl

end Cert.ReferenceIdeal.RefValue

end
-- ==== Proof.LibReshapeAsBroadcast.lean ====
/-
  A vector laid out as a one-row table, or as a one-column table, by a reshape is the same table as the one a broadcast
  along the other axis makes: both hold x k at (0, k), respectively at (k, 0).

  Both sides are read index by index. A reshape keeps the row-major position: entry (0, k) of a table of one row of
  length n sits at position 0 * n + k = k, and entry (k, 0) of a table of n rows of length one at position k * 1 + 0 = k,
  so either reads entry k of the vector. A broadcast along axis b reads the vector at the b-th coordinate of the index
  (at 0 if the vector has a single entry, which is then that same coordinate): k again.
-/
import Idealize.ShloMosaic.Lib.Pipeline.Value
import Idealize.ShloMosaic.Lib.ValueIdx

noncomputable section

namespace Idealize.ShloMosaic.ReshapeAsBroadcast

open Idealize.ShloMosaic Idealize.ShloMosaic.ValueIdx

variable {α : Type}

/-- [n] to [1, n]. -/
theorem shapeCast_row (n : Nat) (x : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x h = broadcastInDim ⟨2, ![1, n]⟩ ![1] hb x := by
  funext j
  -- the only row is row 0; the column is below n
  have hj0 : (j 0).val = 0 := by
    have h0 : (j 0).val < 1 := (j 0).isLt
    omega
  have hj1 : (j 1).val < n := (j 1).isLt
  -- the entry of the vector both sides read
  let k : (⟨1, ![n]⟩ : Shape).Idx := fun a => ⟨(j 1).val, by
    have ha : a = 0 := Subsingleton.elim _ _
    subst ha
    exact hj1⟩
  have hL : shapeCast ⟨2, ![1, n]⟩ x h j = x k := by
    refine shapeCast_apply x h j k ?_
    rw [Shape.rowMajor_val_one, Shape.rowMajor_val_two]
    show (j 1).val = (j 0).val * n + (j 1).val
    rw [hj0]
    omega
  have hR : broadcastInDim ⟨2, ![1, n]⟩ ![1] hb x j = x k := by
    refine broadcastInDim_apply ![1] hb x j k ?_
    intro a
    have ha : a = 0 := Subsingleton.elim _ _
    subst ha
    show (j 1).val = if n = 1 then 0 else (j 1).val
    by_cases hn : n = 1
    · rw [if_pos hn]; omega
    · rw [if_neg hn]
  rw [hL, hR]

/-- [n] to [n, 1]. -/
theorem shapeCast_col (n : Nat) (x : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ x h = broadcastInDim ⟨2, ![n, 1]⟩ ![0] hb x := by
  funext j
  -- the only column is column 0; the row is below n
  have hj1 : (j 1).val = 0 := by
    have h1 : (j 1).val < 1 := (j 1).isLt
    omega
  have hj0 : (j 0).val < n := (j 0).isLt
  let k : (⟨1, ![n]⟩ : Shape).Idx := fun a => ⟨(j 0).val, by
    have ha : a = 0 := Subsingleton.elim _ _
    subst ha
    exact hj0⟩
  have hL : shapeCast ⟨2, ![n, 1]⟩ x h j = x k := by
    refine shapeCast_apply x h j k ?_
    rw [Shape.rowMajor_val_one, Shape.rowMajor_val_two]
    show (j 0).val = (j 0).val * 1 + (j 1).val
    rw [hj1]
    omega
  have hR : broadcastInDim ⟨2, ![n, 1]⟩ ![0] hb x j = x k := by
    refine broadcastInDim_apply ![0] hb x j k ?_
    intro a
    have ha : a = 0 := Subsingleton.elim _ _
    subst ha
    show (j 0).val = if n = 1 then 0 else (j 0).val
    by_cases hn : n = 1
    · rw [if_pos hn]; omega
    · rw [if_neg hn]
  rw [hL, hR]

end Idealize.ShloMosaic.ReshapeAsBroadcast

end
-- ==== Proof.KernelValue.lean ====
/-
  The kernel program's result, at the ideal values, as the two dense layers around the shared aggregation.

  The result array is the second region's output: relu (a + b') · W2 + b2' of what that region found (Region1Value).
  What it found: a, the host's aggregation of the first region's output — which is x · W (Region0Value) — over the
  edge array; b' and b2', the biases reshaped to one-row tables (a reshape [n] -> [1, n] is the broadcast along the
  second axis); W2 as launched. The host operations between the regions are the reference's own, so their composite is
  the reference's `aggregate`, compared as a term and never opened.
-/
import proofs.«125237_j51762945852140_1_alg».proof.Proof.Gen.KernelIdeal.Frame
import proofs.«125237_j51762945852140_1_alg».proof.Proof.Region0Value
import proofs.«125237_j51762945852140_1_alg».proof.Proof.Region1Value
import proofs.«125237_j51762945852140_1_alg».proof.Proof.ReferenceValue
import proofs.«125237_j51762945852140_1_alg».proof.Proof.LibReshapeAsBroadcast
import Idealize.ShloMosaic.Lib.StableHlo.Run

set_option maxRecDepth 16384

noncomputable section

namespace Cert.KernelIdeal.KValue

open Cert.KernelIdeal Cert.KernelIdeal.Gen Cert.Gcn
open Idealize.ShloMosaic Idealize.ShloMosaic.TcCoe Idealize.SL.Sem Idealize.ShloMosaic.StableHlo
open Cert.ReferenceIdeal.ReadP Cert.ReferenceIdeal.RefValue

section Generic

variable {F : FTy → Type} [FloatOps F]
variable (m : (ℓ : Loc nD τ sig) → Buf (Elt F) ℓ) (ρ : Dev nD → PrngReg)

/-- Before the first region: the source indices (edge sources, then the self loops). -/
theorem W3_v3 (c : Dev nD) :
    W3 m ρ c (Proc.devRef .tc main_v3) = val_main_v3 (F := F) (m ((c : Thread nD τ).loc main_arg1)) := by
  dsimp only [W3, W2, W1, W0, hostOps0, hostOps0_1, hostOps0_2]
  after_results_simp <;> rfl

/-- Before the first region: the destination indices (edge destinations, then the self loops). -/
theorem W3_v6 (c : Dev nD) :
    W3 m ρ c (Proc.devRef .tc main_v6) = val_main_v6 (F := F) (m ((c : Thread nD τ).loc main_arg1)) := by
  dsimp only [W3, W2, W1, W0, hostOps0, hostOps0_1, hostOps0_2]
  after_results_simp <;> rfl

/-- Before the first region: the edge norms. -/
theorem W3_v34 (c : Dev nD) :
    W3 m ρ c (Proc.devRef .tc main_v34) = val_main_v34 (F := F) (m ((c : Thread nD τ).loc main_arg1)) := by
  dsimp only [W3, W2, W1, W0, hostOps0, hostOps0_1, hostOps0_2]
  after_results_simp <;> rfl

/-- No host operation before the first region writes an argument. -/
theorem W3_arg0 (c : Dev nD) : W3 m ρ c (Proc.devRef .tc main_arg0) = m ((c : Thread nD τ).loc main_arg0) := by
  dsimp only [W3, W2, W1, W0, hostOps0, hostOps0_1, hostOps0_2]
  after_results_simp <;> rfl
theorem W3_arg2 (c : Dev nD) : W3 m ρ c (Proc.devRef .tc main_arg2) = m ((c : Thread nD τ).loc main_arg2) := by
  dsimp only [W3, W2, W1, W0, hostOps0, hostOps0_1, hostOps0_2]
  after_results_simp <;> rfl
theorem W3_arg3 (c : Dev nD) : W3 m ρ c (Proc.devRef .tc main_arg3) = m ((c : Thread nD τ).loc main_arg3) := by
  dsimp only [W3, W2, W1, W0, hostOps0, hostOps0_1, hostOps0_2]
  after_results_simp <;> rfl
theorem W3_arg4 (c : Dev nD) : W3 m ρ c (Proc.devRef .tc main_arg4) = m ((c : Thread nD τ).loc main_arg4) := by
  dsimp only [W3, W2, W1, W0, hostOps0, hostOps0_1, hostOps0_2]
  after_results_simp <;> rfl
theorem W3_arg5 (c : Dev nD) : W3 m ρ c (Proc.devRef .tc main_arg5) = m ((c : Thread nD τ).loc main_arg5) := by
  dsimp only [W3, W2, W1, W0, hostOps0, hostOps0_1, hostOps0_2]
  after_results_simp <;> rfl

/-- The second region finds, as its first operand, the aggregation of the first region's output. -/
theorem V5_v48 (c : Dev nD) :
    V5 m ρ c main_v48 = aggregate (W4 m ρ c (Proc.devRef .tc main_v35)) (m ((c : Thread nD τ).loc main_arg1)) := by
  show StableHlo.after hostOps1 (W4 m ρ c) (Proc.devRef .tc main_v48) = _
  dsimp only [hostOps1]
  after_results_simp
  rw [W4_of_ne m ρ c main_v3 (by decide), W4_of_ne m ρ c main_v6 (by decide), W4_of_ne m ρ c main_v34 (by decide),
    W3_v3, W3_v6, W3_v34]
  rfl

/-- It finds the first bias as a one-row table: the reshape of the launched vector. -/
theorem V5_v49 (c : Dev nD) :
    V5 m ρ c main_v49 = val_main_v49 (F := F) (m ((c : Thread nD τ).loc main_arg3)) := by
  show StableHlo.after hostOps1 (W4 m ρ c) (Proc.devRef .tc main_v49) = _
  dsimp only [hostOps1]
  after_results_simp
  rw [W4_of_ne m ρ c main_arg3 (by decide), W3_arg3]
  exact Idealize.ShloMosaic.ReshapeAsBroadcast.shapeCast_row 256 _ _ _

/-- It finds the second bias as a one-row table: the reshape of the launched vector. -/
theorem V5_v50 (c : Dev nD) :
    V5 m ρ c main_v50 = val_main_v54 (F := F) (m ((c : Thread nD τ).loc main_arg5)) := by
  show StableHlo.after hostOps1 (W4 m ρ c) (Proc.devRef .tc main_v50) = _
  dsimp only [hostOps1]
  after_results_simp
  rw [W4_of_ne m ρ c main_arg5 (by decide), W3_arg5]
  exact Idealize.ShloMosaic.ReshapeAsBroadcast.shapeCast_row 64 _ _ _

/-- It finds the second weight matrix as launched. -/
theorem V5_arg4 (c : Dev nD) : V5 m ρ c main_arg4 = m ((c : Thread nD τ).loc main_arg4) := by
  show StableHlo.after hostOps1 (W4 m ρ c) (Proc.devRef .tc main_arg4) = _
  dsimp only [hostOps1]
  after_results_simp
  rw [W4_of_ne m ρ c main_arg4 (by decide), W3_arg4]

end Generic

variable (m : (ℓ : Loc nD τ sig) → Buf (Elt Ideal) ℓ) (ρ : Dev nD → PrngReg)

/-- After the first region its output array holds x · W of the launched arrays. -/
theorem W4_v35 (c : Dev nD) :
    W4 m ρ c (Proc.devRef .tc main_v35) = matProd (m ((c : Thread nD τ).loc main_arg0)) (m ((c : Thread nD τ).loc main_arg2)) := by
  refine (W4_arr m ρ c 2).trans ((Region0.arr_eq (V3 m ρ) c).trans ?_)
  show matProd (W3 m ρ c (Proc.devRef .tc main_arg0)) (W3 m ρ c (Proc.devRef .tc main_arg2)) = _
  rw [W3_arg0, W3_arg2]

/-- The program's result array at the end of @main. -/
theorem result_eq (c : Dev nD) :
    W6 m ρ c (Proc.devRef .tc main_v51)
      = denseHead (aggregate (matProd (m ((c : Thread nD τ).loc main_arg0)) (m ((c : Thread nD τ).loc main_arg2))) (m ((c : Thread nD τ).loc main_arg1)))
          (val_main_v49 (F := Ideal) (m ((c : Thread nD τ).loc main_arg3))) (m ((c : Thread nD τ).loc main_arg4))
          (val_main_v54 (F := Ideal) (m ((c : Thread nD τ).loc main_arg5))) := by
  refine (W6_arr m ρ c 4).trans ((Region1.arr_eq (V5 m ρ) c).trans ?_)
  rw [V5_v48, V5_v49, V5_v50, V5_arg4, W4_v35]

end Cert.KernelIdeal.KValue

end
-- ==== Proof.lean ====
/-
  A two-layer graph convolution: h = x · W, a normalised aggregation of h over the edges (with self loops), then
  relu (agg + b) · W2 + b2. The kernel program computes the two dense layers in two pipelined kernels of ten row blocks
  each (operands narrowed to bf16, accumulated in f32) and the aggregation on the host; the reference computes
  everything on the host.

  At the ideal values the narrowing is the identity and a block of rows of a matrix product is that block of the whole
  product, so the first kernel's output array is x · W and the second's is relu (a + b) · W2 + b2 of what it is given.
  The host operations between them are the same on both sides, one function of h and the edge array. So both results
  are `denseHead (aggregate (matProd x W) e) b' W2 b2'`, from arguments that agree. No law of the extended reals beyond
  reading a matrix product as its sum over k is used, so finiteness of the inputs is never needed.

  The frames of the two kernel programs are the generated ones; the reference's frame is its run with the result
  dropped; the idealization rewrote nothing, so `preserves` is trivial.
-/
import proofs.«125237_j51762945852140_1_alg».proof.Defs
import proofs.«125237_j51762945852140_1_alg».proof.Proof.Gen.Kernel
import proofs.«125237_j51762945852140_1_alg».proof.Proof.Gen.Kernel.Skeleton
import proofs.«125237_j51762945852140_1_alg».proof.Proof.Gen.Kernel.Launch
import proofs.«125237_j51762945852140_1_alg».proof.Proof.Gen.Kernel.Points
import proofs.«125237_j51762945852140_1_alg».proof.Proof.Gen.Kernel.Frame
import proofs.«125237_j51762945852140_1_alg».proof.Proof.Gen.KernelIdeal
import proofs.«125237_j51762945852140_1_alg».proof.Proof.Gen.KernelIdeal.Skeleton
import proofs.«125237_j51762945852140_1_alg».proof.Proof.Gen.KernelIdeal.Launch
import proofs.«125237_j51762945852140_1_alg».proof.Proof.Gen.KernelIdeal.Points
import proofs.«125237_j51762945852140_1_alg».proof.Proof.Gen.KernelIdeal.Frame
import proofs.«125237_j51762945852140_1_alg».proof.Proof.Gen.ReferenceIdeal
import proofs.«125237_j51762945852140_1_alg».proof.Proof.Gen.Pre_finite_inputs
import proofs.«125237_j51762945852140_1_alg».proof.Proof.KernelIdealRun
import proofs.«125237_j51762945852140_1_alg».proof.Proof.KernelValue
import proofs.«125237_j51762945852140_1_alg».proof.Proof.ReferenceRun
import proofs.«125237_j51762945852140_1_alg».proof.Proof.ReferenceRead
import proofs.«125237_j51762945852140_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both programs end with the dense head of the aggregate of x · W, of arguments that agree. -/
theorem algebraic : Cert.algebraic_KernelIdeal_ReferenceIdeal := by
  intro m ρ m' ρ' _ hagree
  refine ⟨fun c => Cert.KernelIdeal.Gen.W6 m ρ c (Proc.devRef .tc Cert.KernelIdeal.main_v51),
    Cert.KernelIdeal.GenRun.run_result (F := Ideal) m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5⟩ := hagree c
  rw [Cert.ReferenceIdeal.ReadP.val_main_v56_eq, Cert.ReferenceIdeal.RefValue.result_eq, h0, h1, h2, h3, h4, h5]
  exact (Cert.KernelIdeal.KValue.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
